-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S1x1 : Shape := ⟨2, ![1, 1]⟩
abbrev S64x8192 : Shape := ⟨2, ![64, 8192]⟩
abbrev S64 : Shape := ⟨1, ![64]⟩
abbrev S64x1 : Shape := ⟨2, ![64, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S64x8192_S64x8192_0_0 : ∀ a, (![0, 0] : Fin 2 → Nat) a + S64x8192.size a ≤ S64x8192.size a
  h_S64x8192 : 0 < S64x8192.numel
  reduces_S64x8192_S64 : S64x8192.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S4096x8192.size a
  hwx0_0 : ∀ i : grid0.Coords, EltTy.bits .f32 = 32 ∨ (Rect.block (s := S4096x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S4096x8192.size a
  hwx0_1 : ∀ i : grid0.Coords, EltTy.bits .f32 = 32 ∨ (Rect.block (s := S4096x8192) S64x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .f32⟩
  | .hbm, ⟨3, _⟩ => ⟨S4096x8192, .f32⟩
  | .hbm, ⟨4, _⟩ => ⟨S4096x8192, .i1⟩
  | .hbm, ⟨5, _⟩ => ⟨S_, .f32⟩
  | .hbm, ⟨6, _⟩ => ⟨S4096x8192, .f32⟩
  | .hbm, ⟨7, _⟩ => ⟨S4096x8192, .i1⟩
  | .hbm, ⟨8, _⟩ => ⟨S_, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .i1⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_cst_4 : Ref sig .tc := ⟨.hbm, 17, rfl⟩
abbrev main_cst_5 : Ref sig .tc := ⟨.hbm, 18, rfl⟩
abbrev main_call2_v0 : Ref sig .tc := ⟨.hbm, 19, rfl⟩
abbrev main_call2_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts₀]

class Facts : Prop extends Facts₀ where

variable [Facts]
-- ==== Proof.SquaredError.lean ====
/-
  The scaled squared error, as mathematics.

  For one entry with norm `n` and label `l` the loss term is `(n · a(l) − l · b(l))²`, where the norm's factor
  `a(l)` is 10 when `l = 1`, 5 when `l = 2` and 1 otherwise, and the label's factor `b(l)` is 10 when `l` is 1 or 2
  and 1 otherwise (`term`, stated over any float instance with the comparisons, selects and literals both programs
  print). The loss is the sum of the terms over the whole 4096 × 8192 array, divided by the number of entries.

  Two arrangements of that sum meet here. One adds all entries at once. The other walks the rows in 64 consecutive
  blocks of 64 rows: inside a block it adds each row's 8192 lanes, then the block's 64 row sums, and it keeps a running
  total over the blocks. Addition on the extended reals is commutative and associative at the infinities too, so the
  two arrangements agree for ANY entries, with no finiteness assumed: `sum_eq_blocks` (row `64·t + r` is row `r` of
  block `t`: `blockEquiv`) and `upTo` (the running total after block `n`; `upTo_last`: after the last block it is the
  sum over all blocks).
-/
import Idealize.ShloMosaic.PureOps.Ideal.Laws
import Idealize.ShloMosaic.Lib.ValueIdx

noncomputable section

open scoped BigOperators

namespace Cert.SquaredError

open Idealize.ShloMosaic Idealize.ShloMosaic.ValueIdx

/-! ## One entry -/

/-- The loss term of one entry: the squared difference of the scaled norm and the scaled label. -/
def term {F : FTy → Type} [FloatOps F] (n l : F .f32) : F .f32 :=
  let isOne : BitVec 1 := FloatOps.cmpf .oeq l (Scalar.ofBits .f32 0x3F800000#32)
  let isTwo : BitVec 1 := FloatOps.cmpf .oeq l (Scalar.ofBits .f32 0x40000000#32)
  let a : F .f32 := Scalar.select isOne (Scalar.ofBits .f32 0x41200000#32)
    (Scalar.select isTwo (Scalar.ofBits .f32 0x40A00000#32) (Scalar.ofBits .f32 0x3F800000#32))
  let b : F .f32 := Scalar.select (IntOp.ori isOne isTwo) (Scalar.ofBits .f32 0x41200000#32) (Scalar.ofBits .f32 0x3F800000#32)
  let d : F .f32 := FloatOps.subf (FloatOps.mulf n a) (FloatOps.mulf l b)
  FloatOps.mulf d d

/-- The terms of a whole array of norms and labels, entry by entry. -/
def terms {F : FTy → Type} [FloatOps F] {s : Shape} (n l : FVec F s .f32) : FVec F s .f32 := fun i => term (n i) (l i)

/-! ## Rows in blocks of 64 -/

/-- Row `r` of block `t`, as a row of the whole array. -/
def rowOf (t r : Fin 64) : Fin 4096 := ⟨64 * t.val + r.val, by omega⟩

/-- Every row of the array is exactly one row of exactly one block. -/
def blockEquiv : Fin 64 × Fin 64 ≃ Fin 4096 where
  toFun x := rowOf x.1 x.2
  invFun p := (⟨p.val / 64, by omega⟩, ⟨p.val % 64, by omega⟩)
  left_inv x := by
    obtain ⟨t, r⟩ := x
    refine Prod.ext (Fin.ext ?_) (Fin.ext ?_)
    · show (64 * t.val + r.val) / 64 = t.val
      omega
    · show (64 * t.val + r.val) % 64 = r.val
      omega
  right_inv p := Fin.ext (by
    show 64 * (p.val / 64) + p.val % 64 = p.val
    omega)

/-- The sum over all entries, regrouped: blocks, then a block's rows, then a row's lanes. It holds in every
    commutative monoid, so on the extended reals whatever the entries are. -/
theorem sum_eq_blocks {M : Type*} [AddCommMonoid M] (f : (⟨2, ![4096, 8192]⟩ : Shape).Idx → M) :
    ∑ i, f i = ∑ t : Fin 64, ∑ r : Fin 64, ∑ c : Fin 8192, f (ix2 (rowOf t r) c) := by
  rw [sum_idx2, ← Equiv.sum_comp blockEquiv, Fintype.sum_prod_type]
  rfl

/-! ## The running total over the blocks -/

/-- The total of the blocks `0 … n`. -/
def upTo {M : Type*} [AddCommMonoid M] (B : Fin 64 → M) (n : ℕ) : M :=
  ∑ t ∈ Finset.range (n + 1), if h : t < 64 then B ⟨t, h⟩ else 0

theorem upTo_zero {M : Type*} [AddCommMonoid M] (B : Fin 64 → M) : upTo B 0 = B 0 := by
  unfold upTo
  rw [Finset.sum_range_one, dif_pos (by omega)]
  rfl

theorem upTo_succ {M : Type*} [AddCommMonoid M] (B : Fin 64 → M) (n : ℕ) (h : n + 1 < 64) :
    upTo B (n + 1) = upTo B n + B ⟨n + 1, h⟩ := by
  unfold upTo
  rw [Finset.sum_range_succ, dif_pos h]

/-- After the last block the running total is the sum over all blocks. -/
theorem upTo_last {M : Type*} [AddCommMonoid M] (B : Fin 64 → M) : upTo B 63 = ∑ t : Fin 64, B t := by
  unfold upTo
  rw [Finset.sum_range]
  exact Finset.sum_congr rfl fun t _ => dif_pos t.isLt

/-! ## The loss -/

/-- The terms of block `t`, added row by row and lane by lane. -/
def blockTotal (N L : FVec Ideal ⟨2, ![4096, 8192]⟩ .f32) (t : Fin 64) : Ideal .f32 :=
  ∑ r : Fin 64, ∑ q : Fin 8192, term (F := Ideal) (N (ix2 (rowOf t r) q)) (L (ix2 (rowOf t r) q))

/-- The sum of all terms is the running total of the block totals after the last block. -/
theorem total_eq_upTo (N L : FVec Ideal ⟨2, ![4096, 8192]⟩ .f32) :
    ∑ i, terms N L i = upTo (blockTotal N L) 63 := by
  rw [upTo_last]
  exact sum_eq_blocks (terms N L)

/-- A scalar divided by the number of entries, `2²⁵` (the word both programs print). -/
def mean {F : FTy → Type} [FloatOps F] (x : FVec F ⟨0, ![]⟩ .f32) : FVec F ⟨0, ![]⟩ .f32 :=
  Host.divf x (constant ⟨0, ![]⟩ .f32 0x4C000000#32)

/-- The loss: the mean of the terms. -/
def loss (N L : FVec Ideal ⟨2, ![4096, 8192]⟩ .f32) : FVec Ideal ⟨0, ![]⟩ .f32 :=
  mean (F := Ideal) fun _ => ∑ i, terms N L i

end Cert.SquaredError

end
-- ==== Proof.KernelSum.lean ====
/-
  What the idealized kernel computes, read off its run.

  The grid has 64 points; point `t` sees rows `64·t … 64·t + 63` of the norms and of the labels, and the 1 × 1
  result block stays in place over the whole grid. At a point the body adds, to what the block holds, the block sum of
  its rows' terms: each row's 8192 lanes first, then the 64 row sums (`blockSum`). At the first point it first stores
  zero there. So after point `n` the block holds the running total of the block totals `0 … n` (`outsAt_apply`, by
  induction on the point), the only write-back is the last point's and is the whole array (`final`), and the lines
  after the launch reshape that one entry to a scalar and divide it by the number of entries (`run`).

  The first part is stated for any float instance (it is about which stores the body makes); the sums are read at the
  extended reals.
-/
import proofs.«110854_j31499290149450_1_alg».proof.Proof.SquaredError
import proofs.«110854_j31499290149450_1_alg».proof.Proof.Gen.KernelIdeal.Frame
import Idealize.ShloMosaic.Lib.Pipeline.Value
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.SquaredError

variable {F : FTy → Type} [FloatOps F]

/-! ## What the body leaves in the result block -/

/-- The zero offsets of the body's whole-buffer accesses. -/
theorem hz : (![0, 0] : Fin 2 → Nat) = fun _ => 0 := funext fun a => by fin_cases a <;> rfl

/-- One grid point's contribution: the terms of its block added along the lanes, the row sums added along the rows,
    laid out as the 1 × 1 block. -/
def blockSum (x0 x1 : Vec F S64x8192 .f32) : FVec F S1x1 .f32 :=
  shapeCast S1x1 (multiReduction .add [0] S1
    (shapeCast S64x1 (multiReduction .add [1] S64 (terms x0 x1) 0x00000000#32 Gen.reduces_S64x8192_S64 (.inl rfl) rfl) Gen.shapeCasts_S64_S64x1)
    0x00000000#32 Gen.reduces_S64x1_S1 (.inl rfl) rfl) Gen.shapeCasts_S1_S1x1

/-- The value the body's last store writes: the block's contents as loaded, plus the point's contribution. -/
theorem pay_eq (x0 x1 : Vec F S64x8192 .f32) (xo : Vec F S1x1 .f32) : k0_pay2 x0 x1 xo = addf xo (blockSum x0 x1) :=
  (show k0_pay2 x0 x1 xo = addf (shapeCast S1x1 xo Gen.shapeCasts_S1x1_S1x1) (blockSum x0 x1) from rfl).trans
    (by rw [shapeCast_self])

/-- Away from the first point the body leaves, in the accumulator's buffer holding xo, xo plus the point's block sum. -/
theorem left_B (c : Dev nD) (i : grid0.Coords) (a1 : Memref sig .tc .vmem S64x8192 .f32) (h1 : a1.IsWhole)
    (a2 : Memref sig .tc .vmem S64x8192 .f32) (h2 : a2.IsWhole) (a3 : Memref sig .tc .vmem S1x1 .f32) (h3 : a3.IsWhole)
    (hc : ¬cond0_0 i) (x0 x1 : Vec F S64x8192 .f32) (xo : Vec F S1x1 .f32) :
    out0_B_2 c i a1 h1 a2 h2 a3 h3 hc x0 x1 xo = addf xo (blockSum x0 x1) := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S64x8192) hz,
    View.ld_unit_zero (S := S1x1) hz]
  exact pay_eq x0 x1 xo

/-- At the first point the body stores zero first, so it leaves zero plus the point's block sum. -/
theorem left_A (c : Dev nD) (i : grid0.Coords) (a1 : Memref sig .tc .vmem S64x8192 .f32) (h1 : a1.IsWhole)
    (a2 : Memref sig .tc .vmem S64x8192 .f32) (h2 : a2.IsWhole) (a3 : Memref sig .tc .vmem S1x1 .f32) (h3 : a3.IsWhole)
    (hc : cond0_0 i) (x0 x1 : Vec F S64x8192 .f32) :
    out0_A_2 c i a1 h1 a2 h2 a3 h3 hc x0 x1 = addf (k0_pay1 (F := F)) (blockSum x0 x1) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S64x8192) hz]
  exact pay_eq x0 x1 _

/-! ## One block's sum, read at the extended reals -/

/-- A column cast: an `[a]` vector viewed `[a, 1]` reads, at `(r, 0)`, the vector at `r`. -/
theorem shapeCast_col_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- The block sum's one entry: the block's terms added lane by lane within each row, then row by row. -/
theorem blockSum_apply (x0 x1 : Vec Ideal S64x8192 .f32) :
    blockSum (F := Ideal) x0 x1 (ix2 (0 : Fin 1) (0 : Fin 1))
      = ∑ r : Fin 64, ∑ q : Fin 8192, term (F := Ideal) (x0 (ix2 r q)) (x1 (ix2 r q)) := by
  unfold blockSum
  rw [shapeCast_a_1a_apply]
  refine (Ideal.multiReduction_add_single _ 0x00000000#32 Gen.reduces_S64x1_S1 (.inl rfl) rfl (ix1 0)).trans ?_
  refine Finset.sum_congr rfl fun r _ => ?_
  have e : Gen.reduces_S64x1_S1.lift (ix1 (0 : Fin 1)) r = ix2 r (0 : Fin 1) :=
    funext fun a => Fin.ext (by match a with | ⟨0, _⟩ => rfl | ⟨1, _⟩ => rfl)
  rw [e]
  refine (shapeCast_col_apply (a := 64) _ Gen.shapeCasts_S64_S64x1 r (0 : Fin 1)).trans ?_
  refine (Ideal.multiReduction_add_single _ 0x00000000#32 Gen.reduces_S64x8192_S64 (.inl rfl) rfl (ix1 r)).trans ?_
  refine Finset.sum_congr rfl fun q _ => ?_
  have e2 : Gen.reduces_S64x8192_S64.lift (ix1 r) q = ix2 r q :=
    funext fun a => Fin.ext (by match a with | ⟨0, _⟩ => rfl | ⟨1, _⟩ => rfl)
  rw [e2]
  rfl

/-! ## The accumulation over the grid -/

section Accumulation

variable (m : (ℓ : Loc nD τ sig) → Buf (Elt Ideal) ℓ) (ρ : Dev nD → PrngReg)

/-- The two argument arrays, and their blocks at a grid point, at their literal shapes. -/
abbrev norms (c : Dev nD) : FVec Ideal S4096x8192 .f32 := m ((c : Thread nD τ).loc main_arg0)
abbrev labels (c : Dev nD) : FVec Ideal S4096x8192 .f32 := m ((c : Thread nD τ).loc main_arg1)
abbrev nblk (c : Dev nD) (t : Fin cfg0.N) : Vec Ideal S64x8192 .f32 := iblk m c 0 t
abbrev lblk (c : Dev nD) (t : Fin cfg0.N) : Vec Ideal S64x8192 .f32 := iblk m c 1 t

/-- A grid point as a block number. -/
def blk (t : Fin cfg0.N) : Fin 64 := ⟨t.val, lt_of_lt_of_eq t.isLt N_0⟩

/-- Both inputs' block at point `t` is block row `t`, block column 0. -/
theorem index_norms : ∀ t : Fin cfg0.N, win0_0.index t 0 = t.val ∧ win0_0.index t 1 = 0 :=
  (by decide +kernel : ∀ t : Fin grid0.N, win0_0.index t 0 = t.val ∧ win0_0.index t 1 = 0)
theorem index_labels : ∀ t : Fin cfg0.N, win0_1.index t 0 = t.val ∧ win0_1.index t 1 = 0 :=
  (by decide +kernel : ∀ t : Fin grid0.N, win0_1.index t 0 = t.val ∧ win0_1.index t 1 = 0)

/-- Entry `(r, q)` of the norms' block at point `t` is entry `(64·t + r, q)` of the norms. -/
theorem nblk_apply (c : Dev nD) (t : Fin cfg0.N) (r : Fin 64) (q : Fin 8192) :
    nblk m c t (ix2 r q) = norms m c (ix2 (rowOf (blk t) r) q) := by
  have hi := index_norms t
  unfold nblk iblk
  rw [View.read_apply]
  show m ((c : Thread nD τ).loc main_arg0) _ = m ((c : Thread nD τ).loc main_arg0) _
  congr 1
  funext a
  apply Fin.ext
  match a with
  | ⟨0, _⟩ => show win0_0.index t 0 * 64 + 1 * r.val = 64 * t.val + r.val; rw [hi.1]; omega
  | ⟨1, _⟩ => show win0_0.index t 1 * 8192 + 1 * q.val = q.val; rw [hi.2]; omega

/-- The same for the labels. -/
theorem lblk_apply (c : Dev nD) (t : Fin cfg0.N) (r : Fin 64) (q : Fin 8192) :
    lblk m c t (ix2 r q) = labels m c (ix2 (rowOf (blk t) r) q) := by
  have hi := index_labels t
  unfold lblk iblk
  rw [View.read_apply]
  show m ((c : Thread nD τ).loc main_arg1) _ = m ((c : Thread nD τ).loc main_arg1) _
  congr 1
  funext a
  apply Fin.ext
  match a with
  | ⟨0, _⟩ => show win0_1.index t 0 * 64 + 1 * r.val = 64 * t.val + r.val; rw [hi.1]; omega
  | ⟨1, _⟩ => show win0_1.index t 1 * 8192 + 1 * q.val = q.val; rw [hi.2]; omega

/-- So the block sum at point `t` is block `t`'s total of the arrays' terms. -/
theorem blockTotal_eq (c : Dev nD) (t : Fin cfg0.N) :
    ∑ r : Fin 64, ∑ q : Fin 8192, term (F := Ideal) (nblk m c t (ix2 r q)) (lblk m c t (ix2 r q))
      = blockTotal (norms m c) (labels m c) (blk t) := by
  unfold blockTotal
  refine Finset.sum_congr rfl fun r _ => Finset.sum_congr rfl fun q _ => ?_
  rw [nblk_apply, lblk_apply]

/-- The zero the first point stores is the extended real `0`. -/
theorem zero_entry : (k0_pay1 (F := Ideal)) (ix2 (0 : Fin 1) (0 : Fin 1)) = 0 := by
  show Ideal.ofBits .f32 0x00000000#32 = 0
  exact Ideal.ofBits_zero_f32

/-- After point `n` the result block's one entry is the running total of the block totals `0 … n`: zero plus the
    first block's total at the first point, the entry before plus the point's block total afterwards. -/
theorem outsAt_apply (c : Dev nD) : ∀ (n : ℕ) (h : n < cfg0.N),
    (outsAt0 m c n h : FVec Ideal S1x1 .f32) (ix2 (0 : Fin 1) (0 : Fin 1))
      = upTo (blockTotal (norms m c) (labels m c)) n
  | 0, h => by
    refine (congrFun (outsAt0_A m c ⟨0, h⟩ rfl) _).trans ?_
    refine (congrFun (left_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (nblk m c ⟨0, h⟩) (lblk m c ⟨0, h⟩)) _).trans ?_
    rw [addf_apply, zero_entry, zero_add, blockSum_apply, upTo_zero, blockTotal_eq]
    rfl
  | n + 1, h => by
    have hN : cfg0.N = 64 := N_0
    have hB : ¬(⟨n + 1, h⟩ : Fin cfg0.N).val % 64 = 0 := by dsimp only; omega
    refine (congrFun (outsAt0_B m c ⟨n + 1, h⟩ hB) _).trans ?_
    refine (congrFun (left_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => hB ((hcond0_0 ⟨n + 1, h⟩).mp hh))
      (nblk m c ⟨n + 1, h⟩) (lblk m c ⟨n + 1, h⟩) (outsAt0 m c n (Nat.lt_of_succ_lt h))) _).trans ?_
    rw [addf_apply, outsAt_apply c n (Nat.lt_of_succ_lt h), blockSum_apply, blockTotal_eq, upTo_succ _ n (by omega)]
    rfl

/-! ## The result array and the lines after the launch -/

/-- The last grid point. -/
def lastPt : Fin cfg0.N := ⟨63, by rw [show cfg0.N = 64 from N_0]; decide⟩

/-- What the result block holds after the last point, as contents of the result array (its one block is the array). -/
abbrev result (c : Dev nD) : Buf (Elt Ideal) ((c : Thread nD τ).loc main_v0) := outsAt0 m c 63 lastPt.isLt

/-- The one write-back, at the last point, writes it: block (0, 0) of the 1 × 1 array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  obtain rfl : t = lastPt := Fin.ext h63
  show (cfg0.win 2).cut (grid0.coords lastPt) ((dats m 0 c).after 2 lastPt) = _
  rw [after0_2]
  have hz' : (fun a => win0_2.index lastPt a * main_v0.ty.shape.size a) = fun _ => 0 :=
    funext fun a => by fin_cases a <;> decide +kernel
  exact (Memref.read_access_unit_zero (Elt Ideal) main_v0 hz' (fun a => by rw [congrFun hz' a]; simp) (result m c)).symm

/-- So the result array ends holding it: the last point's block covers the array. -/
theorem final (c : Dev nD) : (dats m 0 c).arrAt 2 cfg0.N = result m c :=
  (dats m 0 c).arrAt_eq_of_cover 2 (result m c) (flushed_eq m c) fun i =>
    ⟨lastPt, (flush0_2 lastPt).mpr rfl, by
      show i ∈ ((View.whole main_v0).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPt 0 * win0_2.size 0 ≤ (i 0 : Nat) ∧ (i 0 : Nat) < win0_2.index lastPt 0 * win0_2.size 0 + win0_2.xsize (grid0.coords lastPt) 0
        rw [show win0_2.index lastPt 0 * win0_2.size 0 = 0 from by decide +kernel, show win0_2.xsize (grid0.coords lastPt) 0 = 1 from by decide +kernel]; omega
      | ⟨1, _⟩ =>
        show win0_2.index lastPt 1 * win0_2.size 1 ≤ (i 1 : Nat) ∧ (i 1 : Nat) < win0_2.index lastPt 1 * win0_2.size 1 + win0_2.xsize (grid0.coords lastPt) 1
        rw [show win0_2.index lastPt 1 * win0_2.size 1 = 0 from by decide +kernel, show win0_2.xsize (grid0.coords lastPt) 1 = 1 from by decide +kernel]; omega⟩

/-- The result array's one entry is the sum of all terms; reshaped to a scalar it is that sum. -/
theorem reshaped_eq (c : Dev nD) :
    shapeCast S_ (result m c) Gen.shapeCasts_S1x1_S_ = fun _ => ∑ i, terms (norms m c) (labels m c) i := by
  funext j
  refine (shapeCast_apply (result m c) Gen.shapeCasts_S1x1_S_ j (ix2 (0 : Fin 1) (0 : Fin 1)) ?_).trans ?_
  · have h1 : (S1x1.rowMajor (ix2 (0 : Fin 1) (0 : Fin 1))).val < 1 :=
      lt_of_lt_of_eq (S1x1.rowMajor _).isLt (by decide : S1x1.numel = 1)
    have h2 : (S_.rowMajor j).val < 1 := lt_of_lt_of_eq (S_.rowMajor j).isLt (by decide : S_.numel = 1)
    show (S1x1.rowMajor (ix2 (0 : Fin 1) (0 : Fin 1))).val = (S_.rowMajor j).val
    omega
  · rw [total_eq_upTo]
    exact outsAt_apply m c 63 lastPt.isLt

/-- The run, read: the program's result is the loss of the argument arrays, which end unchanged. -/
theorem run : θ_run defs (onTc (τ := τ) (main (F := Ideal))) ⟨m, fun _ => 0, ρ⟩ fun r => ∀ c : Dev nD,
      r.2.mem ((c : Thread nD τ).loc main_v2) = loss (norms m c) (labels m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨by
      refine ((h c).2 main_v2 (Pipeline.mem_restRefs_of main_v2 rfl (by decide))).trans ?_
      unfold Pipeline.afterTail₀
      show StableHlo.after hostOps1 _ (Proc.devRef .tc main_v2) = _
      after_results
      rw [(Pipeline.withArrays_arr spec0 launch0.win.arr_inj c _ _ 2).trans (final m c)]
      exact congrArg (mean (F := Ideal)) (reshaped_eq m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩)
    (run_main m ρ)

end Accumulation

end Cert.KernelIdeal.Accum

end
-- ==== Proof.ReferenceSum.lean ====
/-
  What the idealized reference computes: the loss.

  The reference scales norms and labels entry by entry, squares the difference, adds ALL 4096 × 8192 squares in one
  reduction started from zero, and divides by the number of entries. Entry by entry its scaled squared difference is
  the term of the specification (the same comparisons against 1 and 2, the same factors 10, 5 and 1), the reduction
  into a scalar is zero plus the sum over every index, and the last division is the specification's.
-/
import proofs.«110854_j31499290149450_1_alg».proof.Proof.SquaredError
import proofs.«110854_j31499290149450_1_alg».proof.Proof.Gen.ReferenceIdeal.Read

noncomputable section

open scoped BigOperators

namespace Cert.ReferenceIdeal.Whole

open Cert.ReferenceIdeal Cert.ReferenceIdeal.Gen Cert.SquaredError
open Idealize.ShloMosaic Idealize.ShloMosaic.ValueIdx

/-- The reference's squared differences are the terms, entry by entry. -/
theorem squares_eq (N L : FVec Ideal S4096x8192 .f32) : Read.val_main_v13 (F := Ideal) N L = terms N L :=
  funext fun _ => rfl

/-- The reference's result is the loss of its arguments. -/
theorem result_eq (N L : FVec Ideal S4096x8192 .f32) : Read.val_main_v15 (F := Ideal) N L = loss N L := by
  funext j
  rw [Read.val_main_v15_apply, Read.val_main_v14_apply, squares_eq]
  show FloatOps.hostDivf (Ideal.ofBits .f32 0x00000000#32 + ∑ i, terms N L i) _ = FloatOps.hostDivf (∑ i, terms N L i) _
  rw [Ideal.ofBits_zero_f32, zero_add]
  rfl

end Cert.ReferenceIdeal.Whole

end
-- ==== Proof.lean ====
/-
  A mean squared error with label-dependent scaling: a kernel that walks the rows in blocks against one whole-array mean.

  Both programs take norms and labels of shape 4096 × 8192. An entry's norm is scaled by 10 where its label is 1, by 5
  where it is 2, and left alone otherwise; its label is scaled by 10 where it is 1 or 2; the loss is the mean of the
  squared differences. The reference adds all squares in one reduction and divides by the number of entries, 2²⁵. The
  kernel visits 64 blocks of 64 rows; at each it adds the block's squares along the lanes and then along the rows and
  accumulates the block sums in a 1 × 1 result that it zeroes at the first block, and the lines after the launch
  reshape that entry to a scalar and divide it by the same 2²⁵.

  Over the extended reals the two sums are the same sum arranged differently, and addition there is commutative and
  associative at the infinities as well, so the results agree for ALL entries: the precondition is not used by the
  value claim. The literals (1, 2, 5, 10, zero, 2²⁵) are the same words in both programs, and the quotient is the
  same operation on both sides, so no constant is evaluated beyond the zero the sums start from.

  The kernel's running total, the result array and the host lines after the launch are read off its run in
  Proof/KernelSum.lean; the reference's result is read one operation at a time in Proof/ReferenceSum.lean; the
  specification (the term, the regrouping of the sum by row blocks, the loss) is Proof/SquaredError.lean.
  The idealization rewrote nothing, so the word-level kernel and its idealization are one text.
-/
import proofs.«110854_j31499290149450_1_alg».proof.Defs
import proofs.«110854_j31499290149450_1_alg».proof.Proof.Gen.Kernel
import proofs.«110854_j31499290149450_1_alg».proof.Proof.Gen.Kernel.Skeleton
import proofs.«110854_j31499290149450_1_alg».proof.Proof.Gen.Kernel.Launch
import proofs.«110854_j31499290149450_1_alg».proof.Proof.Gen.Kernel.Points
import proofs.«110854_j31499290149450_1_alg».proof.Proof.Gen.Kernel.Frame
import proofs.«110854_j31499290149450_1_alg».proof.Proof.Gen.KernelIdeal
import proofs.«110854_j31499290149450_1_alg».proof.Proof.Gen.KernelIdeal.Skeleton
import proofs.«110854_j31499290149450_1_alg».proof.Proof.Gen.KernelIdeal.Launch
import proofs.«110854_j31499290149450_1_alg».proof.Proof.Gen.KernelIdeal.Points
import proofs.«110854_j31499290149450_1_alg».proof.Proof.Gen.KernelIdeal.Frame
import proofs.«110854_j31499290149450_1_alg».proof.Proof.Gen.ReferenceIdeal
import proofs.«110854_j31499290149450_1_alg».proof.Proof.Gen.Pre_finite_inputs
import proofs.«110854_j31499290149450_1_alg».proof.Proof.Gen.ReferenceIdeal.Run
import proofs.«110854_j31499290149450_1_alg».proof.Proof.Gen.ReferenceIdeal.Read
import proofs.«110854_j31499290149450_1_alg».proof.Proof.SquaredError
import proofs.«110854_j31499290149450_1_alg».proof.Proof.KernelSum
import proofs.«110854_j31499290149450_1_alg».proof.Proof.ReferenceSum
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the loss of the argument arrays: the kernel by its running total over the row blocks, the
    reference by its one sum over every entry, each divided by the number of entries. -/
theorem algebraic : Cert.algebraic_KernelIdeal_ReferenceIdeal := by
  intro m ρ m' ρ' _ hagree
  refine ⟨fun c => Cert.SquaredError.loss (Cert.KernelIdeal.Accum.norms m c) (Cert.KernelIdeal.Accum.labels m c),
    Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  exact Cert.ReferenceIdeal.Whole.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
